-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S100000x32 .f32) (main_arg1 : FVec F S100000x32 .f32) (main_arg2 : IVec S2x1600000 32) (main_arg3 : FVec F S32x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S100000x32 : Shape := ⟨2, ![100000, 32]⟩
abbrev S2x1600000 : Shape := ⟨2, ![2, 1600000]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S5000x32 : Shape := ⟨2, ![5000, 32]⟩

abbrev nBuf : Space → Nat
  | .hbm => 22
  | .vmem => 7
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S32x32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x32, .f32⟩
  | .local _ .vmem, ⟨5, _⟩ => ⟨S5000x32, .f32⟩
  | .local _ .vmem, ⟨6, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v13) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 36
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S32x32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S_, .f32⟩
  | .hbm, ⟨22, _⟩ => ⟨S100000x32, .f32⟩
  | .hbm, ⟨23, _⟩ => ⟨S100000x32, .f32⟩
  | .hbm, ⟨24, _⟩ => ⟨S_, .f32⟩
  | .hbm, ⟨25, _⟩ => ⟨S100000x32, .f32⟩
  | .hbm, ⟨26, _⟩ => ⟨S100000x32, .f32⟩
  | .hbm, ⟨27, _⟩ => ⟨S100000x32, .f32⟩
  | .hbm, ⟨28, _⟩ => ⟨S_, .f32⟩
  | .hbm, ⟨29, _⟩ => ⟨S100000x32, .f32⟩
  | .hbm, ⟨30, _⟩ => ⟨S100000x32, .f32⟩
  | .hbm, ⟨31, _⟩ => ⟨S100000x32, .f32⟩
  | .hbm, ⟨32, _⟩ => ⟨S_, .f32⟩
  | .hbm, ⟨33, _⟩ => ⟨S100000x32, .f32⟩
  | .hbm, ⟨34, _⟩ => ⟨S100000x32, .f32⟩
  | .hbm, ⟨35, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Layer.lean ====
/-
  The layer's arithmetic as ONE function of three arrays, entry by entry.

  Given the neighbourhood sums  a : [n, 32], the initial features  x0 : [n, 32]  and the weight  w : [32, 32],
  first the initial-residual mix

      h (r, k) = c₁ · a (r, k) + c₂ · x0 (r, k)

  and then the identity-mapped product

      out (r, v) = c₃ · h (r, v) + c₄ · ∑ k < 32, h (r, k) · w (k, v),

  with c₁ … c₄ the four f32 words both programs carry (the f32 nearest 0.9, 0.1, 1 − β and β, β = log (0.5/9 + 1)):
  the same words on both sides, so they are never evaluated. Every entry of row r depends on row r of  a  and  x0  only
  (and on all of  w): the function commutes with cutting the rows into blocks, which is what a grid over row blocks
  computes. The number of rows n is a parameter for that reason: the function on a block of rows and on the whole array
  are one definition.
-/
import Idealize.ShloMosaic.PureOps.Ideal.Laws
import Idealize.ShloMosaic.Lib.ValueIdx

noncomputable section

open scoped BigOperators

namespace Cert.Layer

open Idealize.ShloMosaic Idealize.ShloMosaic.ValueIdx

/-- The initial-residual mix of one aggregated entry `u` with one initial-feature entry `v`:  c₁ · u + c₂ · v. -/
def mix (u v : EReal) : EReal :=
  Ideal.ofBits .f32 0x3F666666#32 * u + Ideal.ofBits .f32 0x3DCCCCCD#32 * v

/-- The layer's result at entry `i = (r, v)`:  c₃ · h (r, v) + c₄ · ∑ k, h (r, k) · w (k, v)  with  h = mix a x0. -/
def layer {n : Nat} (a x0 : (⟨2, ![n, 32]⟩ : Shape).Idx → EReal) (w : (⟨2, ![32, 32]⟩ : Shape).Idx → EReal) :
    (⟨2, ![n, 32]⟩ : Shape).Idx → EReal := fun i =>
  Ideal.ofBits .f32 0x3F7228A7#32 * mix (a i) (x0 i)
    + Ideal.ofBits .f32 0x3D5D7597#32 * ∑ k : Fin 32, mix (a (ix2 (i 0) k)) (x0 (ix2 (i 0) k)) * w (ix2 k (i 1))

/-- ROWS IN, ROWS OUT. If a block's rows are rows of the arrays — row `p` of the blocks `ab`, `xb` is row `ρ p` of
    `a`, `x0` — then the layer of the blocks at `(p, v)` is the layer of the arrays at `(ρ p, v)`. -/
theorem layer_rows {n N : Nat} (a x0 : (⟨2, ![N, 32]⟩ : Shape).Idx → EReal) (ab xb : (⟨2, ![n, 32]⟩ : Shape).Idx → EReal)
    (w : (⟨2, ![32, 32]⟩ : Shape).Idx → EReal) (ρ : Fin n → Fin N)
    (ha : ∀ (p : Fin n) (k : Fin 32), ab (ix2 p k) = a (ix2 (ρ p) k))
    (hx : ∀ (p : Fin n) (k : Fin 32), xb (ix2 p k) = x0 (ix2 (ρ p) k))
    (p : Fin n) (v : Fin 32) :
    layer ab xb w (ix2 p v) = layer a x0 w (ix2 (ρ p) v) := by
  unfold layer
  show _ * mix (ab (ix2 p v)) (xb (ix2 p v)) + _ * ∑ k : Fin 32, mix (ab (ix2 p k)) (xb (ix2 p k)) * w (ix2 k v)
    = _ * mix (a (ix2 (ρ p) v)) (x0 (ix2 (ρ p) v)) + _ * ∑ k : Fin 32, mix (a (ix2 (ρ p) k)) (x0 (ix2 (ρ p) k)) * w (ix2 k v)
  rw [ha, hx]
  congr 2
  exact Finset.sum_congr rfl fun k _ => by rw [ha, hx]

end Cert.Layer

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KernelRows.lean ====
/-
  What the idealized kernel's result array holds after the run: the layer's function (Layer.lean) of the neighbourhood
  sums the host computed before the call, the initial features and the weight.

  The call runs over 20 row blocks of 5000 rows. At a point the body loads the 5000 × 32 blocks of the sums and of the
  initial features and the whole 32 × 32 weight, and stores  c₃ · h + c₄ · (h · w)  with  h = c₁ · sums + c₂ · features:
  the product accumulates into zero, so at the ideal values it is the plain sum over the shared axis, and the change of
  format in front of it is the identity. That is the layer's function of the blocks. Row p of the block at point t is
  row 5000 · t + p of the arrays, and the layer's function is row by row, so what point t writes back is block t of the
  layer's function of the whole arrays; the 20 blocks tile the result array.
-/
import proofs.«144808_j34591666602120_1_alg».proof.Proof.Gen.KernelIdeal.Value
import proofs.«144808_j34591666602120_1_alg».proof.Proof.Layer
import proofs.«144808_j34591666602120_1_alg».proof.Proof.LibDotRowsCols
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Rows

open Cert.KernelIdeal Cert.KernelIdeal.Gen Cert.KernelIdeal.Value Cert.Layer

variable (m : (ℓ : Loc nD τ sig) → Buf (Elt Ideal) ℓ) (ρ : Dev nD → PrngReg)

theorem hz : (![0, 0] : Fin 2 → Nat) = fun _ => 0 := funext fun a => by fin_cases a <;> rfl

/-- The body's product is a rows-by-columns product. -/
theorem dot_rowsCols : Cert.Lib.DotRowsCols.RowsCols dot_S5000x32_S32x32_S5000x32_1_0_0_1_n_n := ⟨rfl, rfl, rfl, rfl, rfl, rfl⟩

/-- THE BODY'S STORE is the layer's function of the three loaded blocks. -/
theorem pay_eq (v0 v2 : FVec Ideal S5000x32 .f32) (v8 : FVec Ideal S32x32 .f32) :
    k0_pay1 (F := Ideal) v0 v2 v8 = layer (n := 5000) v0 v2 v8 := by
  funext j
  unfold k0_pay1
  simp only [shapeCast_self]
  show _ * _ + _ * matmul (F := Ideal) dot_S5000x32_S32x32_S5000x32_1_0_0_1_n_n none _ _ (constant S5000x32 .f32 0x00000000#32) j = _
  rw [dot_rowsCols.matmul_zero_apply]
  rfl

/-! ## Where the blocks sit -/

/-- The printed index maps over the 20 points: the three row-blocked windows (sums, initial features, result) sit at
    block (t, 0) of their arrays — the same block row —, the weight's at (0, 0). -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 19 :=
  (by decide +kernel : ∀ t : Fin grid0.N, _)

/-- Every one of the 20 block rows of the result is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-! ## Reading a block off ANY contents of the core's buffers

Stated for arbitrary contents `A` of the buffers, so that nothing here looks inside what the host operations before the
call computed. -/

section Reads

variable (c : Dev nD) (A : (b : Ref sig .tc) → Buf (Elt Ideal) ((c : Thread nD τ).loc b))

/-- An entry of the sums' block at point `t` is the array's entry at block index × block size + the coordinate inside. -/
theorem read_sums (t : Fin cfg0.N) (y : S5000x32.Idx) (k : S100000x32.Idx)
    (hk0 : (k 0).val = win0_0.index t (0 : Fin 2) * 5000 + (y 0).val) (hk1 : (k 1).val = win0_0.index t (1 : Fin 2) * 32 + (y 1).val) :
    (((cfg0.win 0).blk t).view.read (Elt Ideal) (A (Pipeline.arrRef spec0 0)) : Vec Ideal S5000x32 .f32) y
      = (A main_v13 : S100000x32.Idx → EReal) k := by
  rw [View.read_apply]
  show (A main_v13 : S100000x32.Idx → EReal) _ = (A main_v13 : S100000x32.Idx → EReal) _
  refine congrArg (A main_v13 : S100000x32.Idx → EReal) (funext fun a => Fin.ext ?_)
  match a with
  | ⟨0, _⟩ => show win0_0.index t (0 : Fin 2) * 5000 + 1 * (y 0).val = (k 0).val; omega
  | ⟨1, _⟩ => show win0_0.index t (1 : Fin 2) * 32 + 1 * (y 1).val = (k 1).val; omega

/-- The same for the initial features' block. -/
theorem read_feats (t : Fin cfg0.N) (y : S5000x32.Idx) (k : S100000x32.Idx)
    (hk0 : (k 0).val = win0_1.index t (0 : Fin 2) * 5000 + (y 0).val) (hk1 : (k 1).val = win0_1.index t (1 : Fin 2) * 32 + (y 1).val) :
    (((cfg0.win 1).blk t).view.read (Elt Ideal) (A (Pipeline.arrRef spec0 1)) : Vec Ideal S5000x32 .f32) y
      = (A main_arg1 : S100000x32.Idx → EReal) k := by
  rw [View.read_apply]
  show (A main_arg1 : S100000x32.Idx → EReal) _ = (A main_arg1 : S100000x32.Idx → EReal) _
  refine congrArg (A main_arg1 : S100000x32.Idx → EReal) (funext fun a => Fin.ext ?_)
  match a with
  | ⟨0, _⟩ => show win0_1.index t (0 : Fin 2) * 5000 + 1 * (y 0).val = (k 0).val; omega
  | ⟨1, _⟩ => show win0_1.index t (1 : Fin 2) * 32 + 1 * (y 1).val = (k 1).val; omega

/-- The weight's one block is the whole weight, at every point. -/
theorem read_weight (t : Fin cfg0.N) :
    (((cfg0.win 2).blk t).view.read (Elt Ideal) (A (Pipeline.arrRef spec0 2)) : Vec Ideal S32x32 .f32)
      = (A main_arg3 : S32x32.Idx → EReal) := by
  obtain ⟨-, -, -, -, e4, e5, -, -⟩ := idx_facts t
  funext y
  rw [View.read_apply]
  show (A main_arg3 : S32x32.Idx → EReal) _ = (A main_arg3 : S32x32.Idx → EReal) _
  refine congrArg (A main_arg3 : S32x32.Idx → EReal) (funext fun a => Fin.ext ?_)
  match a with
  | ⟨0, _⟩ => show win0_2.index t (0 : Fin 2) * 32 + 1 * (y 0).val = (y 0).val; omega
  | ⟨1, _⟩ => show win0_2.index t (1 : Fin 2) * 32 + 1 * (y 1).val = (y 1).val; omega

end Reads

/-- The layer's function of a row block, cut to the result window's block at point `t`, is that block of the layer's
    function of whole arrays, when the row block's rows are rows 5000 · t + p of the arrays: the layer's function
    goes row by row (`layer_rows`). -/
theorem cut_layer (t : Fin cfg0.N) (Af Xf : S100000x32.Idx → EReal) (W : S32x32.Idx → EReal) (ab xb : S5000x32.Idx → EReal)
    (ha : ∀ (p : Fin 5000) (k : Fin 32) (P : Fin 100000), P.val = win0_3.index t (0 : Fin 2) * 5000 + p.val → ab (ix2 p k) = Af (ix2 P k))
    (hx : ∀ (p : Fin 5000) (k : Fin 32) (P : Fin 100000), P.val = win0_3.index t (0 : Fin 2) * 5000 + p.val → xb (ix2 p k) = Xf (ix2 P k)) :
    (cfg0.win 3).cut (grid0.coords t) (layer (n := 5000) ab xb W)
      = ((cfg0.win 3).blk t).view.read (Elt Ideal) (layer (n := 100000) Af Xf W) := by
  obtain ⟨e0, e1, e2, e3, e4, e5, e6, e7⟩ := idx_facts t
  funext j
  obtain ⟨p, v, rfl⟩ : ∃ (p : Fin 5000) (v : Fin 32), j = ix2 p v := ⟨j 0, j 1, eq_ix2 j⟩
  have hrow : ∀ p : Fin 5000, win0_3.index t (0 : Fin 2) * 5000 + p.val < 100000 := fun p => by omega
  have hemb : ((cfg0.win 3).blk t).view.emb (ix2 p v)
      = (ix2 (⟨win0_3.index t (0 : Fin 2) * 5000 + p.val, hrow p⟩ : Fin 100000) v : S100000x32.Idx) := by
    funext a
    apply Fin.ext
    match a with
    | ⟨0, _⟩ => show win0_3.index t (0 : Fin 2) * 5000 + 1 * p.val = win0_3.index t (0 : Fin 2) * 5000 + p.val; omega
    | ⟨1, _⟩ => show win0_3.index t (1 : Fin 2) * 32 + 1 * v.val = v.val; omega
  rw [View.read_apply]
  show layer (n := 5000) ab xb W (ix2 p v) = layer (n := 100000) Af Xf W (((cfg0.win 3).blk t).view.emb (ix2 p v))
  rw [hemb]
  exact layer_rows Af Xf ab xb W (fun p => ⟨win0_3.index t (0 : Fin 2) * 5000 + p.val, hrow p⟩)
    (fun p k => ha p k _ rfl) (fun p k => hx p k _ rfl) p v

/-! ## The result array -/

/-- The layer's function of the arrays as the call finds them: the neighbourhood sums the host wrote, the initial
    features, the weight. -/
def result (c : Dev nD) : S100000x32.Idx → EReal :=
  layer (n := 100000) (V m c main_v13) (V m c main_arg1) (V m c main_arg3)

/-- WHAT POINT `t` WRITES BACK is block `t` of `result`: the body's store is the layer's function of the blocks
    (`pay_eq`), the blocks' rows are rows 5000 · t + p of the arrays, and the layer's function goes row by row. -/
theorem flushed_eq (c : Dev nD) (t : Fin cfg0.N) :
    (dats m 0 c).flushed 3 t = ((cfg0.win 3).blk t).view.read (Elt Ideal) (result m c) := by
  obtain ⟨e0, e1, e2, e3, e4, e5, e6, e7⟩ := idx_facts t
  rw [flushed3]
  unfold out0_3
  rw [View.canon_unit_zero hz]
  simp only [View.ld_unit_zero (S := S5000x32) hz, View.ld_unit_zero (S := S32x32) hz]
  rw [pay_eq]
  unfold iblk result
  rw [read_weight c (V m c) t]
  exact cut_layer t (V m c main_v13) (V m c main_arg1) (V m c main_arg3) _ _
    (fun p k P hP => read_sums c (V m c) t (ix2 p k) (ix2 P k) (by show P.val = win0_0.index t (0 : Fin 2) * 5000 + p.val; omega)
      (by show k.val = win0_0.index t (1 : Fin 2) * 32 + k.val; omega))
    (fun p k P hP => read_feats c (V m c) t (ix2 p k) (ix2 P k) (by show P.val = win0_1.index t (0 : Fin 2) * 5000 + p.val; omega)
      (by show k.val = win0_1.index t (1 : Fin 2) * 32 + k.val; omega))

/-- An index of the result array is in point `t`'s block iff each coordinate is in the block's range on its axis. -/
theorem mem_blk (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v14).slice (win0_3.rect t)).set ↔ _
  rw [View.set_slice_whole, Rect.mem_set_unit]
  exact Iff.rfl

/-- The 20 blocks tile the result array: row r is in the block of point r / 5000. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- So the result array ends holding `result`. -/
theorem final (c : Dev nD) : (dats m 0 c).arrAt 3 cfg0.N = result m c :=
  (dats m 0 c).arrAt_eq_of_cover 3 (result m c) (fun t _ => flushed_eq m c t) cover

/-- The run, read: the result array at the layer's function of the arrays the call found, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.Rows

end
-- ==== Proof.RefLayer.lean ====
/-
  The reference's result, read entry by entry, is the layer's function (Layer.lean) of the neighbourhood sums it
  computed (its gather and accumulating scatter, kept as one unopened term), the initial features and the weight:
  c₁ · sums + c₂ · features entry by entry, then c₃ · h + c₄ · (h · w) with the host's product read at an entry as the
  plain sum over the shared axis.
-/
import proofs.«144808_j34591666602120_1_alg».proof.Proof.Gen.ReferenceIdeal.Read
import proofs.«144808_j34591666602120_1_alg».proof.Proof.Layer

noncomputable section

open Idealize.ShloMosaic Idealize.ShloMosaic.ValueIdx
open scoped BigOperators

namespace Cert.ReferenceIdeal.RefLayer

open Cert.ReferenceIdeal Cert.ReferenceIdeal.Gen Cert.ReferenceIdeal.Read Cert.Layer

/-- The left operand's index at result entry `i`, contraction position `k`, is (row of `i`, `k`). -/
theorem lidx_eq (i : S100000x32.Idx) (k : Fin 32) : lidx_main_v21 i k = ix2 (i 0) k :=
  funext fun a => Fin.ext (by match a with | ⟨0, _⟩ => rfl | ⟨1, _⟩ => rfl)

/-- The right operand's is (`k`, column of `i`). -/
theorem ridx_eq (i : S100000x32.Idx) (k : Fin 32) : ridx_main_v21 i k = ix2 k (i 1) :=
  funext fun a => Fin.ext (by match a with | ⟨0, _⟩ => rfl | ⟨1, _⟩ => rfl)

/-- THE REFERENCE'S RESULT is the layer's function of its own neighbourhood sums, the initial features and the weight. -/
theorem ref_eq (x0 x1 : (⟨S100000x32, .f32⟩ : BufTy).Contents (Elt Ideal)) (x2 : (⟨S2x1600000, .i32⟩ : BufTy).Contents (Elt Ideal))
    (x3 : (⟨S32x32, .f32⟩ : BufTy).Contents (Elt Ideal)) :
    val_main_v24 (F := Ideal) x0 x1 x2 x3 = layer (n := 100000) (val_main_v13 (F := Ideal) x0 x2) x1 x3 := by
  have h18 : val_main_v18 (F := Ideal) x0 x1 x2 = fun j => mix (val_main_v13 (F := Ideal) x0 x2 j) (x1 j) := by
    funext j
    rw [val_main_v18_apply, val_main_v15_apply, val_main_v17_apply, val_main_v14_apply, val_main_v16_apply,
      val_main_cst_1_apply, val_main_cst_2_apply]
    rfl
  funext i
  rw [val_main_v24_apply, val_main_v20_apply, val_main_v23_apply, val_main_v21_apply, val_main_v19_apply, val_main_v22_apply,
    val_main_cst_3_apply, val_main_cst_4_apply, h18]
  refine congrArg (fun s : EReal => Ideal.ofBits .f32 0x3F7228A7#32 * mix (val_main_v13 (F := Ideal) x0 x2 i) (x1 i) + Ideal.ofBits .f32 0x3D5D7597#32 * s)
    (Finset.sum_congr rfl fun k _ => ?_)
  rw [lidx_eq, ridx_eq]
  rfl

end Cert.ReferenceIdeal.RefLayer

end
-- ==== Proof.Claims.lean ====
/-
  The five claims.

  The kernel's program and the reference compute the neighbourhood sums by the SAME host operations (a gather of the
  source rows and an accumulating scatter onto the target rows, over the same index arithmetic): the two terms are one,
  and neither is opened. On top of the sums both apply the layer's function (Layer.lean): the reference by host
  operations over the whole arrays (RefLayer.lean), the kernel a block of 5000 rows at a time (KernelRows.lean). No
  algebraic law is needed between the two sides and the finiteness of the inputs is never used: the arithmetic is the
  same entry by entry, the product into a zero accumulator and the host's product both being the plain sum over the
  shared axis at the ideal values.

  The frames of the two kernel programs are the generated ones; the reference's is its generated run with the result
  dropped; nothing was rewritten by the idealization, so there is nothing to preserve.
-/
import proofs.«144808_j34591666602120_1_alg».proof.Defs
import proofs.«144808_j34591666602120_1_alg».proof.Proof.Gen.Kernel.Frame
import proofs.«144808_j34591666602120_1_alg».proof.Proof.Gen.KernelIdeal.Frame
import proofs.«144808_j34591666602120_1_alg».proof.Proof.Gen.ReferenceIdeal.Run
import proofs.«144808_j34591666602120_1_alg».proof.Proof.Gen.ReferenceIdeal.Read
import proofs.«144808_j34591666602120_1_alg».proof.Proof.Gen.Pre_finite_inputs
import proofs.«144808_j34591666602120_1_alg».proof.Proof.KernelRows
import proofs.«144808_j34591666602120_1_alg».proof.Proof.RefLayer
import Idealize.ShloMosaic.Lib.StableHlo.Run

noncomputable section

open Idealize.ShloMosaic Idealize.ShloMosaic.TcCoe Idealize.SL.Sem

namespace Cert.Proof.Claims

/-- THE NEIGHBOURHOOD SUMS the call finds in its first operand — what the seventeen host operations before the call leave
    there — are the reference's own sums of the same arguments: the same operations in the same order. -/
theorem sums_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v13 : Cert.KernelIdeal.S100000x32.Idx → EReal)
      = Cert.ReferenceIdeal.Read.val_main_v13 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  dsimp only [Cert.KernelIdeal.Gen.V, Cert.KernelIdeal.Gen.hostOps0]
  after_results
  rfl

/-- The kernel's result array, as a function of the arguments: the arrays the call finds are the reference's sums, the
    initial features and the weight as launched (no host operation before the call writes the last two). -/
theorem result_eq (m : (ℓ : Loc Cert.KernelIdeal.nD Cert.KernelIdeal.τ Cert.KernelIdeal.sig) → Buf (Elt Ideal) ℓ) (c : Dev Cert.KernelIdeal.nD) :
    Cert.KernelIdeal.Rows.result m c
      = Cert.Layer.layer (n := 100000)
          (Cert.ReferenceIdeal.Read.val_main_v13 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2)))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)) := by
  unfold Cert.KernelIdeal.Rows.result
  rw [Cert.KernelIdeal.Gen.V_main_arg1, Cert.KernelIdeal.Gen.V_main_arg3, sums_eq]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the layer's function of the neighbourhood sums of the (agreeing) arguments, the
    initial features and the weight. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefLayer.ref_eq,
    (hagree c).1, (hagree c).2.1, (hagree c).2.2.1, (hagree c).2.2.2]
  exact (result_eq m c).symm

end Cert.Proof.Claims

end
-- ==== Proof.lean ====
/- The proof of `Cert.Claim`: a graph-convolution layer with initial residual and identity mapping — neighbourhood sums
   by a gather and an accumulating scatter on the host, then  c₃ · h + c₄ · (h · W)  with  h = c₁ · sums + c₂ · x₀ —
   whose dense part the kernel computes a block of 5000 rows at a time, against the same layer written with host
   operations over the whole arrays. Proof/Layer.lean states the layer's function once, for any number of rows;
   Proof/LibDotRowsCols.lean reads a rows-by-columns product at an entry; Proof/KernelRows.lean shows the kernel's result
   array is that function of the arrays the call finds; Proof/RefLayer.lean shows the reference's result is that function
   of its own sums; Proof/Claims.lean identifies the two programs' sums (the same host operations) and states the five
   claims, assembled here behind the witnesses of the programs' stated facts. -/
import proofs.«144808_j34591666602120_1_alg».proof.Defs
import proofs.«144808_j34591666602120_1_alg».proof.Proof.Claims
import proofs.«144808_j34591666602120_1_alg».proof.Proof.Gen.Kernel
import proofs.«144808_j34591666602120_1_alg».proof.Proof.Gen.KernelIdeal
import proofs.«144808_j34591666602120_1_alg».proof.Proof.Gen.ReferenceIdeal
import proofs.«144808_j34591666602120_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
